-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel

variable [Facts]

def fn {F : FTy → Type} [FloatOps F] (main_arg0 : FVec F S16x1024x512 .f32) (main_arg1 : FVec F S16x1024x512 .f32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S16x1024x512 .f32 := Host.absf main_arg1
  let main_cst_0 : FVec F S_ .f32 := constant S_ .f32 0x7F800000#32
  let main_v5 : FVec F S16x1024x512 .f32 := broadcastInDim S16x1024x512 ![] bcast_S_S16x1024x512 main_cst_0
  let main_v6 : IVec S16x1024x512 1 := cmpf .olt main_v4 main_v5
  let main_c_1 : IVec S_ 1 := constantI S_ 1 1#1
  let main_v7 : IVec S_ 1 := (fun x v => Host.reduce IntOp.andi x v reducesTo_S16x1024x512_S_d0_1_2 h_S_) main_v6 main_c_1
  let main_v8 : IVec S_ 1 := andi main_v3 main_v7
  main_v8
-- ==== Kernel.lean ====
abbrev S16x1024x512 : Shape := ⟨3, ![16, 1024, 512]⟩
abbrev S1x1 : Shape := ⟨2, ![1, 1]⟩
abbrev S1x512x512 : Shape := ⟨3, ![1, 512, 512]⟩
abbrev S1x1024x512 : Shape := ⟨3, ![1, 1024, 512]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩
abbrev S1024x1 : Shape := ⟨2, ![1024, 1]⟩
abbrev S1x1024 : Shape := ⟨2, ![1, 1024]⟩
abbrev S512x1024 : Shape := ⟨2, ![512, 1024]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S1x512x512, .f32⟩
  | .local _ .vmem, ⟨1, _⟩ => ⟨S1x512x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S512x512_S512 : S512x512.Reduces [1] S512
  shapeCasts_S512_S512x1 : S512.ShapeCasts S512x1
  reduces_S1024x512_S1024 : S1024x512.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S512x1_S512x1024 : S512x1.Broadcasts S512x1024
  broadcasts_S1x1024_S512x1024 : S1x1024.Broadcasts S512x1024
  iota_S512x1_d0_w32 : S512x1.Iotas .tc 32 [0]
  iota_S1x1024_d1_w32 : S1x1024.Iotas .tc 32 [1]
  reduces_S512x1024_S512 : S512x1024.Reduces [1] S512
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x1024x512.size a
  hwx0_0 : ∀ i : grid0.Coords, EltTy.bits .f32 = 32 ∨ (Rect.block (s := S16x1024x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .f32 = 32 ∨ (Rect.block (s := S16x1024x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x512 : Shape := ⟨3, ![16, 1024, 512]⟩
abbrev S_ : Shape := ⟨0, ![]⟩
abbrev S16x1024 : Shape := ⟨2, ![16, 1024]⟩
abbrev S16x1024x1024 : Shape := ⟨3, ![16, 1024, 1024]⟩
abbrev S16x1024x1 : Shape := ⟨3, ![16, 1024, 1]⟩
abbrev S16x1x1024 : Shape := ⟨3, ![16, 1, 1024]⟩
abbrev S1024x1024 : Shape := ⟨2, ![1024, 1024]⟩
abbrev S1x1024x1024 : Shape := ⟨3, ![1, 1024, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S16x1024x512, .f32⟩
  | .hbm, ⟨3, _⟩ => ⟨S_, .f32⟩
  | .hbm, ⟨4, _⟩ => ⟨S16x1024, .f32⟩
  | .hbm, ⟨5, _⟩ => ⟨S16x1024x512, .f32⟩
  | .hbm, ⟨6, _⟩ => ⟨S_, .f32⟩
  | .hbm, ⟨7, _⟩ => ⟨S16x1024, .f32⟩
  | .hbm, ⟨8, _⟩ => ⟨S16x1024x1024, .f32⟩
  | .hbm, ⟨9, _⟩ => ⟨S16x1024x1, .f32⟩
  | .hbm, ⟨10, _⟩ => ⟨S16x1x1024, .f32⟩
  | .hbm, ⟨11, _⟩ => ⟨S16x1024x1024, .f32⟩
  | .hbm, ⟨12, _⟩ => ⟨S16x1024x1024, .f32⟩
  | .hbm, ⟨13, _⟩ => ⟨S16x1024x1024, .f32⟩
  | .hbm, ⟨14, _⟩ => ⟨S_, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | .hbm, ⟨18, _⟩ => ⟨S_, .f32⟩
  | .hbm, ⟨19, _⟩ => ⟨S16x1024x1024, .f32⟩
  | .hbm, ⟨20, _⟩ => ⟨S16x1024x1024, .f32⟩
  | .hbm, ⟨21, _⟩ => ⟨S16x1024x1024, .f32⟩
  | .hbm, ⟨22, _⟩ => ⟨S1024x1024, .i32⟩
  | .hbm, ⟨23, _⟩ => ⟨S1024x1024, .i32⟩
  | .hbm, ⟨24, _⟩ => ⟨S_, .i32⟩
  | .hbm, ⟨25, _⟩ => ⟨S1024x1024, .i32⟩
  | .hbm, ⟨26, _⟩ => ⟨S1024x1024, .i32⟩
  | .hbm, ⟨27, _⟩ => ⟨S1024x1024, .i1⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S16x1024x1024, .f32⟩
  | .hbm, ⟨33, _⟩ => ⟨S1x1024x1024, .f32⟩
  | .hbm, ⟨34, _⟩ => ⟨S16x1024x1024, .f32⟩
  | .hbm, ⟨35, _⟩ => ⟨S16x1024x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16x1024x1024, .f32⟩
  | .hbm, ⟨42, _⟩ => ⟨S16x1024x1024, .f32⟩
  | .hbm, ⟨43, _⟩ => ⟨S_, .f32⟩
  | .hbm, ⟨44, _⟩ => ⟨S16x1024x1024, .f32⟩
  | .hbm, ⟨45, _⟩ => ⟨S16x1024x1024, .f32⟩
  | .hbm, ⟨46, _⟩ => ⟨S16x1024x1024, .f32⟩
  | .hbm, ⟨47, _⟩ => ⟨S1x1024x1024, .f32⟩
  | .hbm, ⟨48, _⟩ => ⟨S16x1024x1024, .f32⟩
  | .hbm, ⟨49, _⟩ => ⟨S16x1024x1024, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  reducesTo_S16x1024x512_S16x1024_d2 : S16x1024x512.ReducesTo [2] S16x1024
  h_S_ : 0 < S_.numel
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  bcast_S_S16x1024x1024 : S_.BroadcastsInDim S16x1024x1024 (![] : Fin 0 → Fin S16x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  reducesTo_S16x1024x1024_S_d0_1_2 : S16x1024x1024.ReducesTo [0, 1, 2] S_
  dot_S16x1024x512_S16x1024x512_S16x1024x1024_2_2_1_1_0_0_wf : DotDims.WF S16x1024x512 S16x1024x512 S16x1024x1024 [2] [2] [1] [1] [0] [0]

variable [Facts₀]

def dot_S16x1024x512_S16x1024x512_S16x1024x1024_2_2_1_1_0_0 : DotDims S16x1024x512 S16x1024x512 S16x1024x1024 where
  lhsContracting := [2]
  rhsContracting := [2]
  lhsNonContracting := [1]
  rhsNonContracting := [1]
  lhsBatch := [0]
  rhsBatch := [0]
  wf := dot_S16x1024x512_S16x1024x512_S16x1024x1024_2_2_1_1_0_0_wf

class Facts : Prop extends Facts₀ where

variable [Facts]
-- ==== Proof.Spec.lean ====
/-
  The off-diagonal margin loss over pairwise distances, as one function of the two argument arrays on the
  extended reals.

  For a batch b, a row n of the first array and a row k of the second (each a vector of 512 entries), the
  squared distance is written through the expansion  |x|² + |y|² - 2⟨x, y⟩,  clipped below at zero, and its square
  root s is the distance. A pair contributes s² ("pull") and max(1 - s, 0)² ("push"), both only when n ≠ k.
  The loss is the total over all batches and pairs divided by the number of off-diagonal pairs,
  16 · 1024 · 1023 = 16760832, which is a binary float exactly.

  Two arrangements of the same total are related here:
    * jointly — the pull and the push terms added pair by pair, the pairs visited tile by tile (32 tiles, each
      half of one batch's rows against all of its columns), the grand total divided once;
    * split — the pull terms and the push terms totalled separately, each total divided, the quotients added.
  They agree on every pair of extended-real arrays: a sum of sums may be regrouped in any commutative monoid,
  the mask is 0 or 1 (so it distributes over a sum whatever the summands are), and multiplying by the finite
  non-negative real 1/16760832 distributes over any sum of extended reals.
-/
import Idealize.ShloMosaic.PureOps.Ideal
import Idealize.ShloMosaic.PureOps.Ideal.Laws
import Idealize.ShloMosaic.Lib.ValueIdx
import Mathlib.Data.EReal.Operations
import Mathlib.Algebra.BigOperators.Fin

noncomputable section

namespace Cert.PairLoss

open Idealize.ShloMosaic Idealize.ShloMosaic.ValueIdx

/-! ## The literals -/

/-- The factor 2 of the cross term. -/
abbrev two : EReal := Ideal.ofBits .f32 0x40000000#32
/-- The margin, and the mask's value off the diagonal. -/
abbrev one : EReal := Ideal.ofBits .f32 0x3F800000#32
/-- The number of off-diagonal pairs, 16 · 1024 · 1023. -/
abbrev count : EReal := Ideal.ofBits .f32 0x4B7FC000#32

theorem one_eq : one = 1 := by
  simp [one, Ideal.ofBits, Ideal.ieee, -EReal.coe_mul]; norm_num

theorem count_eq : count = ((16760832 : ℝ) : EReal) := by
  simp [count, Ideal.ofBits, Ideal.ieee, -EReal.coe_mul]

/-! ## One pair of rows -/

/-- The squared length of a row. -/
def sq (f : Fin 512 → EReal) : EReal := ∑ d : Fin 512, f d * f d
/-- The inner product of two rows. -/
def ip (f g : Fin 512 → EReal) : EReal := ∑ d : Fin 512, f d * g d
/-- The distance of two rows: the root of the expanded squared distance clipped at zero. -/
def gap (f g : Fin 512 → EReal) : EReal := Ideal.sqrt (max ((sq f + sq g) - two * ip f g) 0)
/-- How far a distance falls short of the margin. -/
def hinge (s : EReal) : EReal := max (one - s) 0
/-- The mask: 0 on the diagonal, 1 off it, by the positions' numbers. -/
def offDiag (a b : ℕ) : EReal := if a = b then 0 else 1

/-- The pull term of a pair under a mask value. -/
def pull (f g : Fin 512 → EReal) (o : EReal) : EReal := gap f g * gap f g * o
/-- The push term of a pair under a mask value. -/
def push (f g : Fin 512 → EReal) (o : EReal) : EReal := hinge (gap f g) * hinge (gap f g) * o
/-- Both terms of a pair, added before the mask is applied. -/
def both (f g : Fin 512 → EReal) (o : EReal) : EReal :=
  (gap f g * gap f g + hinge (gap f g) * hinge (gap f g)) * o

/-- Under the mask of two positions the joint term is the sum of the two: the mask is 0 or 1. -/
theorem both_offDiag (f g : Fin 512 → EReal) (a b : ℕ) :
    both f g (offDiag a b) = pull f g (offDiag a b) + push f g (offDiag a b) := by
  unfold both pull push offDiag
  split
  · simp only [mul_zero, add_zero]
  · simp only [mul_one]

/-! ## The arrays -/

/-- An argument array: 16 batches of 1024 rows of 512 entries. -/
abbrev Arr : Type := (⟨3, ![16, 1024, 512]⟩ : Shape).Idx → EReal

/-- Row n of batch b. -/
def row (A : Arr) (b : Fin 16) (n : Fin 1024) : Fin 512 → EReal := fun d => A (ix3 b n d)

/-- The total of the pull terms over all batches and pairs. -/
def pullSum (A B : Arr) : EReal :=
  ∑ b : Fin 16, ∑ n : Fin 1024, ∑ k : Fin 1024, pull (row A b n) (row B b k) (offDiag n.val k.val)
/-- The total of the push terms over all batches and pairs. -/
def pushSum (A B : Arr) : EReal :=
  ∑ b : Fin 16, ∑ n : Fin 1024, ∑ k : Fin 1024, push (row A b n) (row B b k) (offDiag n.val k.val)
/-- The total of the joint terms over all batches and pairs. -/
def bothSum (A B : Arr) : EReal :=
  ∑ b : Fin 16, ∑ n : Fin 1024, ∑ k : Fin 1024, both (row A b n) (row B b k) (offDiag n.val k.val)

theorem bothSum_eq (A B : Arr) : bothSum A B = pullSum A B + pushSum A B := by
  unfold bothSum pullSum pushSum
  simp only [both_offDiag, Finset.sum_add_distrib]

/-- The loss with the two kinds of term totalled and divided separately. -/
def lossSplit (A B : Arr) : EReal := Ideal.div (pullSum A B) count + Ideal.div (pushSum A B) count
/-- The loss with the joint total divided once. -/
def lossJoint (A B : Arr) : EReal := Ideal.div (bothSum A B) count

/-- Dividing by the (finite, positive) pair count distributes over the sum of the two totals. -/
theorem lossJoint_eq_lossSplit (A B : Arr) : lossJoint A B = lossSplit A B := by
  unfold lossJoint lossSplit
  rw [bothSum_eq, count_eq, Ideal.div_coe (by norm_num), Ideal.div_coe (by norm_num), Ideal.div_coe (by norm_num)]
  exact EReal.right_distrib_of_nonneg_of_ne_top (EReal.coe_nonneg.mpr (by norm_num)) (EReal.coe_ne_top _) _ _

/-! ## The tiles -/

/-- The batch of tile t: tiles go through the batches in order, two to a batch. -/
def tileBatch (t : Fin 32) : Fin 16 := ⟨t.val / 2, by have := t.isLt; omega⟩
/-- The row that position p of tile t holds: the second tile of a batch starts at row 512. -/
def tileRow (t : Fin 32) (p : Fin 512) : Fin 1024 := ⟨t.val % 2 * 512 + p.val, by have := p.isLt; omega⟩

/-- (tile, position) pairs are exactly the (batch, row) pairs. -/
def tileEquiv : Fin 32 × Fin 512 ≃ Fin 16 × Fin 1024 where
  toFun x := (tileBatch x.1, tileRow x.1 x.2)
  invFun y := (⟨y.1.val * 2 + y.2.val / 512, by have := y.1.isLt; have := y.2.isLt; omega⟩,
    ⟨y.2.val % 512, Nat.mod_lt _ (by norm_num)⟩)
  left_inv x := by
    obtain ⟨⟨t, ht⟩, ⟨p, hp⟩⟩ := x
    simp only [tileBatch, tileRow, Prod.mk.injEq, Fin.mk.injEq]
    constructor <;> omega
  right_inv y := by
    obtain ⟨⟨b, hb⟩, ⟨n, hn⟩⟩ := y
    simp only [tileBatch, tileRow, Prod.mk.injEq, Fin.mk.injEq]
    constructor <;> omega

/-- A total over tiles and positions is the total over batches and rows. -/
theorem sum_tiles {M : Type*} [AddCommMonoid M] (T : Fin 16 → Fin 1024 → M) :
    ∑ t : Fin 32, ∑ p : Fin 512, T (tileBatch t) (tileRow t p) = ∑ b : Fin 16, ∑ n : Fin 1024, T b n := by
  rw [← Fintype.sum_prod_type', ← Fintype.sum_prod_type']
  exact Equiv.sum_comp tileEquiv (fun y => T y.1 y.2)

/-- What one tile adds to the running total: its 512 rows against the batch's 1024 columns. -/
def tileSum (A B : Arr) (t : Fin 32) : EReal :=
  ∑ p : Fin 512, ∑ q : Fin 1024,
    both (row A (tileBatch t) (tileRow t p)) (row B (tileBatch t) q) (offDiag (t.val % 2 * 512 + p.val) q.val)

theorem sum_tileSum (A B : Arr) : ∑ t : Fin 32, tileSum A B t = bothSum A B := by
  unfold tileSum bothSum
  exact sum_tiles (fun b n => ∑ k : Fin 1024, both (row A b n) (row B b k) (offDiag n.val k.val))

/-- A tile's contribution by the tile's number, zero past the last tile. -/
def tileSumN (A B : Arr) (n : ℕ) : EReal := if h : n < 32 then tileSum A B ⟨n, h⟩ else 0

/-- The running total after tile n. -/
def running (A B : Arr) (n : ℕ) : EReal := ∑ t ∈ Finset.range (n + 1), tileSumN A B t

theorem running_zero (A B : Arr) : running A B 0 = tileSum A B ⟨0, by norm_num⟩ := by
  unfold running
  rw [Finset.sum_range_one]
  exact dif_pos _

theorem running_succ (A B : Arr) (n : ℕ) (h : n + 1 < 32) :
    running A B (n + 1) = running A B n + tileSum A B ⟨n + 1, h⟩ := by
  unfold running
  rw [Finset.sum_range_succ _ (n + 1)]
  exact congrArg (_ + ·) (dif_pos h)

/-- After the last tile the running total is the joint total of all pairs. -/
theorem running_last (A B : Arr) : running A B 31 = bothSum A B := by
  rw [← sum_tileSum]
  unfold running
  rw [← Fin.sum_univ_eq_sum_range (fun n => tileSumN A B n) 32]
  exact Finset.sum_congr rfl fun t _ => dif_pos t.isLt

end Cert.PairLoss

end
-- ==== Proof.KernelPieces.lean ====
/-
  What one run of the kernel body leaves in the one-entry accumulator block.

  The body adds the tile's total to the accumulator. At the first grid point it first stores a zero there and
  reads it back, so it leaves zero plus the tile's total; at every later point it leaves what the point before
  left plus the tile's total. Both are one covering store whose value is the body's last sum of the loaded
  blocks and of the accumulator as read. Stated for any float instance.
-/
import proofs.«158564_j67413806678513_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The body's last sum: the accumulator as read plus the tile's total, from the two loaded blocks and the tile's
    position. -/
abbrev step (i : grid0.Coords) (x0 : Vec F S1x512x512 .f32) (x1 : Vec F S1x1024x512 .f32) (xo : Vec F S1x1 .f32) :
    Vec F S1x1 .f32 :=
  k0_pay1 (k0_pay3 x0 x1) (k0_pay4 (F := F) i) (k0_pay5 x0 x1) xo

/-- A later point: the accumulator block held `xo`; the body leaves `xo` plus the tile's total. -/
theorem out_later (c : Dev nD) (i : grid0.Coords) (a2 : Memref sig .tc .vmem S1x512x512 .f32) (h2 : a2.IsWhole)
    (a3 : Memref sig .tc .vmem S1x1024x512 .f32) (h3 : a3.IsWhole) (a4 : Memref sig .tc .vmem S1x1 .f32) (h4 : a4.IsWhole)
    (hc : ¬cond0_0 i) (x0 : Vec F S1x512x512 .f32) (x1 : Vec F S1x1024x512 .f32) (xo : Vec F S1x1 .f32) :
    out0_B_2 c i a2 h2 a3 h3 a4 h4 hc x0 x1 xo = step i x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S1x512x512) hz3,
    View.ld_unit_zero (S := S1x1024x512) hz3, View.ld_unit_zero (S := S1x1) hz]

/-- The first point: the body stores the zero block, reads it back, and leaves zero plus the tile's total. -/
theorem out_first (c : Dev nD) (i : grid0.Coords) (a2 : Memref sig .tc .vmem S1x512x512 .f32) (h2 : a2.IsWhole)
    (a3 : Memref sig .tc .vmem S1x1024x512 .f32) (h3 : a3.IsWhole) (a4 : Memref sig .tc .vmem S1x1 .f32) (h4 : a4.IsWhole)
    (hc : cond0_0 i) (x0 : Vec F S1x512x512 .f32) (x1 : Vec F S1x1024x512 .f32) :
    out0_A_2 c i a2 h2 a3 h3 a4 h4 hc x0 x1 = step i x0 x1 (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S1x512x512) hz3,
    View.ld_unit_zero (S := S1x1024x512) hz3, View.ld_unit_zero (S := S1x1) hz]

end Cert.KernelIdeal.Pieces

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.LibColumnSum.lean ====
/-
  A sum down the columns as a plain sum, and the total of an array taken in two steps.

  At the ideal values a sum along the first axis of an [a, b] array from the zero pattern, read at column q, is the
  plain sum over the column. A total is often taken in two steps: the lanes are summed with the result kept as a
  column [a, 1], the column is summed into one entry [1], and the entry is cast to a [1, 1] block. Read at its one
  index that block is the double sum over rows and columns. All for any extents.
-/
import proofs.«158564_j67413806678513_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.LibColumnSum

open Idealize.ShloMosaic Idealize.ShloMosaic.ValueIdx

/-- At the ideal values the sum down the columns of an [a, b] array from the zero pattern, read at column q, is the
    sum of the column. -/
theorem column_sum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec (FTy.bits .f32)) = FKind.add.neutral .f32 hφ) (q : Fin b) :
    multiReduction (F := Ideal) .add [0] ⟨1, ![b]⟩ src 0x00000000#32 h hφ hacc (ix1 q) = ∑ k : Fin a, src (ix2 k q) :=
  (Ideal.multiReduction_add_single src _ h hφ hacc (ix1 q)).trans
    (Finset.sum_congr rfl fun k _ => congrArg src
      (funext fun ax => Fin.ext (by match ax with | ⟨0, _⟩ => rfl | ⟨1, _⟩ => rfl)))

/-- A vector [a] cast to a column [a, 1], read at (p, u), is the vector at p. -/
theorem column_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    omega)

/-- The lanes of an [a, b] array summed and kept as a column, the column summed into one entry, the entry cast to a
    [1, 1] block: at its index, the sum over all rows and columns. -/
theorem total_apply {a b : ℕ} (src : FVec Ideal ⟨2, ![a, b]⟩ .f32)
    (h₁ : (⟨2, ![a, b]⟩ : Shape).Reduces [1] ⟨1, ![a]⟩) (hc : (⟨1, ![a]⟩ : Shape).ShapeCasts ⟨2, ![a, 1]⟩)
    (h₀ : (⟨2, ![a, 1]⟩ : Shape).Reduces [0] ⟨1, ![1]⟩) (hc' : (⟨1, ![1]⟩ : Shape).ShapeCasts ⟨2, ![1, 1]⟩)
    (hφ : FKind.Formats .f32) (hacc : (0x00000000#32 : BitVec (FTy.bits .f32)) = FKind.add.neutral .f32 hφ)
    (hφ' : FKind.Formats .f32) (hacc' : (0x00000000#32 : BitVec (FTy.bits .f32)) = FKind.add.neutral .f32 hφ')
    (y : (⟨2, ![1, 1]⟩ : Shape).Idx) :
    shapeCast ⟨2, ![1, 1]⟩ (multiReduction (F := Ideal) .add [0] ⟨1, ![1]⟩
      (shapeCast ⟨2, ![a, 1]⟩ (multiReduction (F := Ideal) .add [1] ⟨1, ![a]⟩ src 0x00000000#32 h₁ hφ hacc) hc)
      0x00000000#32 h₀ hφ' hacc') hc' y = ∑ p : Fin a, ∑ q : Fin b, src (ix2 p q) := by
  obtain ⟨u, v, rfl⟩ : ∃ (u : Fin 1) (v : Fin 1), y = ix2 u v := ⟨y 0, y 1, eq_ix2 y⟩
  refine (shapeCast_a_1a_apply _ hc' u v).trans ((column_sum_apply _ h₀ hφ' hacc' v).trans ?_)
  refine Finset.sum_congr rfl fun p _ => ?_
  exact (column_apply _ hc p v).trans (Cert.LibKeepdims.lane_sum_apply src h₁ hφ hacc p)

end Cert.LibColumnSum

end
-- ==== Proof.KernelPoint.lean ====
/-
  What one tile adds to the running total.

  A tile holds 512 rows of the first array (a [1, 512, 512] block) and all 1024 rows of the second (a [1, 1024, 512]
  block) of one batch. Read on the extended reals, entry (p, q) of the tile's [512, 1024] distance array is the
  specification's distance of row p of the first block and row q of the second: the squared lengths are lane sums
  kept as a column and as a row, the cross term is the product of the two blocks contracting their last axes from
  the zero accumulator (the change of format before it is the identity), and the clipped root is taken entry by
  entry. Entry (p, q) of the mask is 0 where the tile's row number, its first row plus p, is the column number q,
  and 1 elsewhere; on 32-bit words nothing wraps at these extents. The tile's contribution is the lane sum, then the
  column sum, of (s² + max(1 - s, 0)²) · mask, added to the one entry of the running total as it was read: the
  specification's joint terms summed over the tile.
-/
import proofs.«158564_j67413806678513_1_alg».proof.Proof.Gen.KernelIdeal.Skeleton
import proofs.«158564_j67413806678513_1_alg».proof.Proof.LibKeepdims
import proofs.«158564_j67413806678513_1_alg».proof.Proof.LibColumnSum
import proofs.«158564_j67413806678513_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
noncomputable section
namespace Cert.KernelIdeal.Point
open Idealize.ShloMosaic Idealize.ShloMosaic.ValueIdx Cert.KernelIdeal Cert.KernelIdeal.Gen

/-! ## The squared lengths -/

/-- The lane sum of the squares of a [1, 512, 512] block's rows, kept as a column and spread over the columns:
    at (p, q) the squared length of row p. -/
theorem sq_left_apply (x0 : FVec Ideal S1x512x512 .f32) (p : Fin 512) (q : Fin 1024) :
    broadcastTo S512x1024 (shapeCast S512x1 (multiReduction (F := Ideal) .add [1] S512
      (mulf (shapeCast S512x512 x0 shapeCasts_S1x512x512_S512x512) (shapeCast S512x512 x0 shapeCasts_S1x512x512_S512x512))
      0x00000000#32 reduces_S512x512_S512 (.inl rfl) rfl) shapeCasts_S512_S512x1) broadcasts_S512x1_S512x1024 (ix2 p q)
      = Cert.PairLoss.sq (fun d => x0 (ix3 (0 : Fin 1) p d)) := by
  refine (Cert.LibKeepdims.column_broadcast_apply _ _ _ p q).trans ((Cert.LibKeepdims.lane_sum_apply _ _ _ _ p).trans ?_)
  unfold Cert.PairLoss.sq
  refine Finset.sum_congr rfl fun d _ => ?_
  show shapeCast S512x512 x0 shapeCasts_S1x512x512_S512x512 (ix2 p d) * shapeCast S512x512 x0 shapeCasts_S1x512x512_S512x512 (ix2 p d) = _
  rw [shapeCast_1ab_ab_apply]

/-- The same for the [1, 1024, 512] block, its column turned into a row and spread down the rows:
    at (p, q) the squared length of row q. -/
theorem sq_right_apply (x1 : FVec Ideal S1x1024x512 .f32) (p : Fin 512) (q : Fin 1024) :
    broadcastTo S512x1024 (transpose S1x1024 [1, 0] (shapeCast S1024x1 (multiReduction (F := Ideal) .add [1] S1024
      (mulf (shapeCast S1024x512 x1 shapeCasts_S1x1024x512_S1024x512) (shapeCast S1024x512 x1 shapeCasts_S1x1024x512_S1024x512))
      0x00000000#32 reduces_S1024x512_S1024 (.inl rfl) rfl) shapeCasts_S1024_S1024x1) transposes_S1024x1_p1_0_S1x1024)
      broadcasts_S1x1024_S512x1024 (ix2 p q)
      = Cert.PairLoss.sq (fun d => x1 (ix3 (0 : Fin 1) q d)) := by
  refine (Cert.LibKeepdims.row_of_column_broadcast_apply _ _ _ _ p q).trans ((Cert.LibKeepdims.lane_sum_apply _ _ _ _ q).trans ?_)
  unfold Cert.PairLoss.sq
  refine Finset.sum_congr rfl fun d _ => ?_
  show shapeCast S1024x512 x1 shapeCasts_S1x1024x512_S1024x512 (ix2 q d) * shapeCast S1024x512 x1 shapeCasts_S1x1024x512_S1024x512 (ix2 q d) = _
  rw [shapeCast_1ab_ab_apply]

/-! ## The cross term -/

theorem lhs_dot_0 (i : S512x1024.Idx) (k : dot_S512x512_S1024x512_S512x1024_1_1_0_0_n_n.contr.Idx) :
    (dot_S512x512_S1024x512_S512x1024_1_1_0_0_n_n.lhsIdx i k 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem lhs_dot_1 (i : S512x1024.Idx) (k : dot_S512x512_S1024x512_S512x1024_1_1_0_0_n_n.contr.Idx) :
    (dot_S512x512_S1024x512_S512x1024_1_1_0_0_n_n.lhsIdx i k 1).val = (k ⟨0, by decide⟩).val :=
  dot_S512x512_S1024x512_S512x1024_1_1_0_0_n_n.lhsIdx_val_of_single rfl i k
theorem rhs_dot_0 (i : S512x1024.Idx) (k : dot_S512x512_S1024x512_S512x1024_1_1_0_0_n_n.contr.Idx) :
    (dot_S512x512_S1024x512_S512x1024_1_1_0_0_n_n.rhsIdx i k 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem rhs_dot_1 (i : S512x1024.Idx) (k : dot_S512x512_S1024x512_S512x1024_1_1_0_0_n_n.contr.Idx) :
    (dot_S512x512_S1024x512_S512x1024_1_1_0_0_n_n.rhsIdx i k 1).val = (k ⟨0, by decide⟩).val :=
  dot_S512x512_S1024x512_S512x1024_1_1_0_0_n_n.rhsIdx_val_of_single rfl i k

/-- The product of the two blocks contracting their last axes, from the zero accumulator: at (p, q) the inner
    product of row p of the first and row q of the second (the change of format is the identity). -/
theorem cross_apply (x0 : FVec Ideal S1x512x512 .f32) (x1 : FVec Ideal S1x1024x512 .f32) (p : Fin 512) (q : Fin 1024) :
    matmul (F := Ideal) dot_S512x512_S1024x512_S512x1024_1_1_0_0_n_n none
      (truncf .bf16 (shapeCast S512x512 x0 shapeCasts_S1x512x512_S512x512) bitsLt_bf16_f32)
      (truncf .bf16 (shapeCast S1024x512 x1 shapeCasts_S1x1024x512_S1024x512) bitsLt_bf16_f32)
      (constant S512x1024 .f32 0x00000000#32) (ix2 p q)
      = Cert.PairLoss.ip (fun d => x0 (ix3 (0 : Fin 1) p d)) (fun d => x1 (ix3 (0 : Fin 1) q d)) := by
  refine (Ideal.matmul_constant_zero_apply dot_S512x512_S1024x512_S512x1024_1_1_0_0_n_n none _ _ (ix2 p q)).trans ?_
  rw [← Equiv.sum_comp (ValueIdx.contrEquiv1 dot_S512x512_S1024x512_S512x1024_1_1_0_0_n_n 512 rfl rfl).symm]
  unfold Cert.PairLoss.ip
  refine Finset.sum_congr rfl fun k _ => ?_
  have hk := ValueIdx.contrEquiv1_symm_val dot_S512x512_S1024x512_S512x1024_1_1_0_0_n_n 512 rfl rfl k
  have el : dot_S512x512_S1024x512_S512x1024_1_1_0_0_n_n.lhsIdx (ix2 p q) ((ValueIdx.contrEquiv1 dot_S512x512_S1024x512_S512x1024_1_1_0_0_n_n 512 rfl rfl).symm k) = ix2 p k := funext fun a => Fin.ext (by
    match a with
    | ⟨0, _⟩ => exact lhs_dot_0 _ _
    | ⟨1, _⟩ => exact (lhs_dot_1 _ _).trans hk)
  have er : dot_S512x512_S1024x512_S512x1024_1_1_0_0_n_n.rhsIdx (ix2 p q) ((ValueIdx.contrEquiv1 dot_S512x512_S1024x512_S512x1024_1_1_0_0_n_n 512 rfl rfl).symm k) = ix2 q k := funext fun a => Fin.ext (by
    match a with
    | ⟨0, _⟩ => exact rhs_dot_0 _ _
    | ⟨1, _⟩ => exact (rhs_dot_1 _ _).trans hk)
  rw [el, er]
  show shapeCast S512x512 x0 shapeCasts_S1x512x512_S512x512 (ix2 p k) * shapeCast S1024x512 x1 shapeCasts_S1x1024x512_S1024x512 (ix2 q k) = _
  rw [shapeCast_1ab_ab_apply, shapeCast_1ab_ab_apply]

/-! ## The distance -/

/-- The distance array at an entry is the specification's distance of the two rows. -/
theorem dist_apply (x0 : Vec Ideal S1x512x512 .f32) (x1 : Vec Ideal S1x1024x512 .f32) (p : Fin 512) (q : Fin 1024) :
    k0_pay3 x0 x1 (ix2 p q)
      = Cert.PairLoss.gap (fun d => x0 (ix3 (0 : Fin 1) p d)) (fun d => x1 (ix3 (0 : Fin 1) q d)) := by
  unfold Cert.PairLoss.gap
  exact congrArg Ideal.sqrt (congrArg₂ max
    (congrArg₂ (· - ·) (congrArg₂ (· + ·) (sq_left_apply x0 p q) (sq_right_apply x1 p q))
      (congrArg (Cert.PairLoss.two * ·) (cross_apply x0 x1 p q)))
    Ideal.ofBits_zero_f32)

/-! ## The mask -/

/-- A choice between two constants on the equality of two words, at an index. -/
theorem select_cmpi_eq_apply {s : Shape} (a b : IVec s 32) (x y : EReal) (j : s.Idx) :
    select (cmpi .eq a b) (broadcast s x) (broadcast s y) j = if a j = b j then x else y := by
  show Scalar.select (IntOp.cmpi .eq (a j) (b j)) x y = _
  by_cases h : a j = b j
  · rw [if_pos h, StableHlo.Predicate.cmpi_eq_iff.mpr h, select_one]
  · rw [if_neg h, eq_zero_of_ne_one (fun h' => h (StableHlo.Predicate.cmpi_eq_iff.mp h')), select_zero]

/-- The row numbers of the tile, as words: the position in the tile plus the tile's first row. -/
theorem rows_apply (c : BitVec 32) (p : Fin 512) (q : Fin 1024) :
    broadcastTo S512x1024 (addi (iota .tc S512x1 32 [0] iota_S512x1_d0_w32) (broadcast S512x1 c))
      broadcasts_S512x1_S512x1024 (ix2 p q) = BitVec.ofNat 32 p.val + c := by
  refine (broadcastTo_apply _ broadcasts_S512x1_S512x1024 (ix2 p q) (ix2 p (0 : Fin 1)) fun ax => ?_).trans ?_
  · match ax with
    | ⟨0, _⟩ =>
      show p.val = if (512 : ℕ) = 1 then 0 else p.val
      rw [if_neg (by decide)]
    | ⟨1, _⟩ => rfl
  · show IntOp.addi (iota .tc S512x1 32 [0] iota_S512x1_d0_w32 (ix2 p (0 : Fin 1))) c = _
    rw [iota_single_apply]
    rfl

/-- The column numbers, as words. -/
theorem cols_apply (p : Fin 512) (q : Fin 1024) :
    broadcastTo S512x1024 (iota .tc S1x1024 32 [1] iota_S1x1024_d1_w32) broadcasts_S1x1024_S512x1024 (ix2 p q)
      = BitVec.ofNat 32 q.val := by
  refine (broadcastTo_1b_ab_apply _ broadcasts_S1x1024_S512x1024 p q).trans ?_
  rw [iota_single_apply]

/-- On 32-bit words the row number of a tile's position equals a column number exactly when the numbers are equal:
    nothing wraps. -/
theorem word_eq_iff (c p q : ℕ) (hc : c < 2) (hp : p < 512) (hq : q < 1024) :
    BitVec.ofNat 32 p + BitVec.ofNat 32 c * 512#32 = BitVec.ofNat 32 q ↔ c * 512 + p = q := by
  rw [← BitVec.toNat_inj]
  simp only [BitVec.toNat_add, BitVec.toNat_mul, BitVec.toNat_ofNat]
  omega

/-- The mask at an entry: zero where the tile's row number is the column number, one elsewhere. -/
theorem mask_apply (i : grid0.Coords) (p : Fin 512) (q : Fin 1024) :
    k0_pay4 (F := Ideal) i (ix2 p q) = Cert.PairLoss.offDiag ((i 1).val * 512 + p.val) q.val := by
  have hc : (i 1).val < 2 := (i 1).isLt
  unfold k0_pay4
  refine (select_cmpi_eq_apply _ _ _ _ _).trans ?_
  rw [rows_apply, cols_apply]
  show (if BitVec.ofNat 32 p.val + BitVec.ofNat 32 (i 1).val * 512#32 = BitVec.ofNat 32 q.val
      then Ideal.ofBits .f32 0x00000000#32 else Ideal.ofBits .f32 0x3F800000#32) = _
  unfold Cert.PairLoss.offDiag
  by_cases h : (i 1).val * 512 + p.val = q.val
  · rw [if_pos h, if_pos ((word_eq_iff _ _ _ hc p.isLt q.isLt).mpr h)]
    exact Ideal.ofBits_zero_f32
  · rw [if_neg h, if_neg (fun h' => h ((word_eq_iff _ _ _ hc p.isLt q.isLt).mp h'))]
    exact Cert.PairLoss.one_eq

/-! ## The tile's total -/

/-- One entry of the array the tile totals: the specification's joint term of the pair. -/
theorem term_apply (i : grid0.Coords) (x0 : Vec Ideal S1x512x512 .f32) (x1 : Vec Ideal S1x1024x512 .f32)
    (p : Fin 512) (q : Fin 1024) :
    mulf (addf (k0_pay5 x0 x1)
        (mulf (maximumf (subf (broadcast S512x1024 (Scalar.ofBits (F := Ideal) .f32 0x3F800000#32)) (k0_pay3 x0 x1))
            (broadcast S512x1024 (Scalar.ofBits (F := Ideal) .f32 0x00000000#32)))
          (maximumf (subf (broadcast S512x1024 (Scalar.ofBits (F := Ideal) .f32 0x3F800000#32)) (k0_pay3 x0 x1))
            (broadcast S512x1024 (Scalar.ofBits (F := Ideal) .f32 0x00000000#32)))))
      (k0_pay4 (F := Ideal) i) (ix2 p q)
      = Cert.PairLoss.both (fun d => x0 (ix3 (0 : Fin 1) p d)) (fun d => x1 (ix3 (0 : Fin 1) q d))
          (Cert.PairLoss.offDiag ((i 1).val * 512 + p.val) q.val) := by
  show (k0_pay3 x0 x1 (ix2 p q) * k0_pay3 x0 x1 (ix2 p q)
      + max (Ideal.ofBits .f32 0x3F800000#32 - k0_pay3 x0 x1 (ix2 p q)) (Ideal.ofBits .f32 0x00000000#32)
        * max (Ideal.ofBits .f32 0x3F800000#32 - k0_pay3 x0 x1 (ix2 p q)) (Ideal.ofBits .f32 0x00000000#32))
      * k0_pay4 (F := Ideal) i (ix2 p q) = _
  rw [dist_apply, mask_apply, Ideal.ofBits_zero_f32]
  rfl

/-- What the tile's arithmetic stores into the one-entry running total, given the total as read: that total plus the
    specification's joint terms of the tile's 512 rows against the 1024 columns, masked by the rows' numbers in the batch. -/
theorem step_apply (i : grid0.Coords) (x0 : Vec Ideal S1x512x512 .f32) (x1 : Vec Ideal S1x1024x512 .f32)
    (xo : Vec Ideal S1x1 .f32) (y : S1x1.Idx) :
    k0_pay1 (k0_pay3 x0 x1) (k0_pay4 (F := Ideal) i) (k0_pay5 x0 x1) xo y
      = xo y + ∑ p : Fin 512, ∑ q : Fin 1024,
          Cert.PairLoss.both (fun d => x0 (ix3 (0 : Fin 1) p d)) (fun d => x1 (ix3 (0 : Fin 1) q d))
            (Cert.PairLoss.offDiag ((i 1).val * 512 + p.val) q.val) := by
  refine congrArg₂ (· + ·) (congrFun (shapeCast_self xo shapeCasts_S1x1_S1x1) y)
    ((Cert.LibColumnSum.total_apply _ reduces_S512x1024_S512 shapeCasts_S512_S512x1 reduces_S512x1_S1 shapeCasts_S1_S1x1
      (.inl rfl) rfl (.inl rfl) rfl y).trans ?_)
  exact Finset.sum_congr rfl fun p _ => Finset.sum_congr rfl fun q _ => term_apply i x0 x1 p q

end Cert.KernelIdeal.Point
end
-- ==== Proof.KernelValue.lean ====
/-
  The kernel's run, read: its result is the joint loss of the two argument arrays.

  The grid has 32 points, two per batch: point t stages rows (t mod 2)·512 … +511 of batch t div 2 of the first
  array, and all 1024 rows of that batch of the second. The one-entry accumulator block is never moved and is
  written back once, after the last point; each point adds its tile's total to it, the first point starting
  from zero. So after point n the accumulator holds the running total of tiles 0 … n (by induction on the point),
  after point 31 the joint total of all pairs, and the host then divides the one entry by the pair count.
-/
import proofs.«158564_j67413806678513_1_alg».proof.Proof.KernelPieces
import proofs.«158564_j67413806678513_1_alg».proof.Proof.KernelPoint
import proofs.«158564_j67413806678513_1_alg».proof.Proof.Spec
import Idealize.ShloMosaic.Lib.Pipeline.Value
import Idealize.ShloMosaic.Lib.StableHlo.Run
import Idealize.ShloMosaic.Lib.Tactic

noncomputable section

namespace Cert.KernelIdeal.Total

open Idealize.ShloMosaic Idealize.ShloMosaic.TcCoe Idealize.SL.Sem Idealize.ShloMosaic.ValueIdx
open Idealize.ShloMosaic.Pipeline (Dat)
open Cert.KernelIdeal Cert.KernelIdeal.Gen Cert.PairLoss

variable (m : (ℓ : Loc nD τ sig) → Buf (Elt Ideal) ℓ) (ρ : Dev nD → PrngReg)

/-- The two argument arrays on a core. -/
abbrev argA (c : Dev nD) : Arr := m ((c : Thread nD τ).loc main_arg0)
abbrev argB (c : Dev nD) : Arr := m ((c : Thread nD τ).loc main_arg1)

/-- A grid point as a tile number. -/
def tile (t : Fin cfg0.N) : Fin 32 := ⟨t.val, lt_of_lt_of_eq t.isLt N_0⟩

/-! ## Where each point's blocks lie -/

theorem indexA : ∀ t : Fin cfg0.N, win0_0.index t (0 : Fin 3) = t.val / 2 ∧ win0_0.index t (1 : Fin 3) = t.val % 2
    ∧ win0_0.index t (2 : Fin 3) = 0 :=
  (by decide +kernel : ∀ t : Fin grid0.N, win0_0.index t (0 : Fin 3) = t.val / 2 ∧ win0_0.index t (1 : Fin 3) = t.val % 2
    ∧ win0_0.index t (2 : Fin 3) = 0)

theorem indexB : ∀ t : Fin cfg0.N, win0_1.index t (0 : Fin 3) = t.val / 2 ∧ win0_1.index t (1 : Fin 3) = 0
    ∧ win0_1.index t (2 : Fin 3) = 0 :=
  (by decide +kernel : ∀ t : Fin grid0.N, win0_1.index t (0 : Fin 3) = t.val / 2 ∧ win0_1.index t (1 : Fin 3) = 0
    ∧ win0_1.index t (2 : Fin 3) = 0)

theorem indexAcc : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem coordHalf : ∀ t : Fin cfg0.N, ((grid0.coords t) 1).val = t.val % 2 :=
  (by decide +kernel : ∀ t : Fin grid0.N, ((grid0.coords t) 1).val = t.val % 2)

/-- The first array's block at point t, as a literal-shaped vector. -/
abbrev blkA (c : Dev nD) (t : Fin cfg0.N) : Vec Ideal S1x512x512 .f32 := iblk m c 0 t
/-- The second array's block at point t. -/
abbrev blkB (c : Dev nD) (t : Fin cfg0.N) : Vec Ideal S1x1024x512 .f32 := iblk m c 1 t

/-- Entry (p, d) of the first block is row (t mod 2)·512 + p of batch t div 2. -/
theorem blkA_apply (c : Dev nD) (t : Fin cfg0.N) (p d : Fin 512) :
    blkA m c t (ix3 (0 : Fin 1) p d) = argA m c (ix3 (tileBatch (tile t)) (tileRow (tile t) p) d) := by
  unfold blkA iblk
  rw [View.read_apply]
  show V m c main_arg0 _ = m ((c : Thread nD τ).loc main_arg0) _
  refine (congrFun (V_main_arg0 m c) _).trans (congrArg _ ?_)
  funext a
  apply Fin.ext
  have hp := p.isLt
  match a with
  | ⟨0, _⟩ => show win0_0.index t 0 * 1 + 1 * 0 = t.val / 2; rw [(indexA t).1]; omega
  | ⟨1, _⟩ => show win0_0.index t 1 * 512 + 1 * p.val = t.val % 2 * 512 + p.val; rw [(indexA t).2.1]; omega
  | ⟨2, _⟩ => show win0_0.index t 2 * 512 + 1 * d.val = d.val; rw [(indexA t).2.2]; omega

/-- Entry (q, d) of the second block is row q of batch t div 2. -/
theorem blkB_apply (c : Dev nD) (t : Fin cfg0.N) (q : Fin 1024) (d : Fin 512) :
    blkB m c t (ix3 (0 : Fin 1) q d) = argB m c (ix3 (tileBatch (tile t)) q d) := by
  unfold blkB iblk
  rw [View.read_apply]
  show V m c main_arg1 _ = m ((c : Thread nD τ).loc main_arg1) _
  refine (congrFun (V_main_arg1 m c) _).trans (congrArg _ ?_)
  funext a
  apply Fin.ext
  match a with
  | ⟨0, _⟩ => show win0_1.index t 0 * 1 + 1 * 0 = t.val / 2; rw [(indexB t).1]; omega
  | ⟨1, _⟩ => show win0_1.index t 1 * 1024 + 1 * q.val = q.val; rw [(indexB t).2.1]; omega
  | ⟨2, _⟩ => show win0_1.index t 2 * 512 + 1 * d.val = d.val; rw [(indexB t).2.2]; omega

/-! ## One point adds its tile's total -/

theorem step_tile (c : Dev nD) (t : Fin cfg0.N) (xo : Vec Ideal S1x1 .f32) (y : S1x1.Idx) :
    Pieces.step (grid0.coords t) (blkA m c t) (blkB m c t) xo y
      = xo y + tileSum (argA m c) (argB m c) (tile t) := by
  refine (Point.step_apply (grid0.coords t) (blkA m c t) (blkB m c t) xo y).trans (congrArg (xo y + ·) ?_)
  unfold tileSum
  refine Finset.sum_congr rfl fun p _ => Finset.sum_congr rfl fun q _ => ?_
  rw [coordHalf t]
  have eA : (fun d => blkA m c t (ix3 (0 : Fin 1) p d)) = row (argA m c) (tileBatch (tile t)) (tileRow (tile t) p) :=
    funext fun d => blkA_apply m c t p d
  have eB : (fun d => blkB m c t (ix3 (0 : Fin 1) q d)) = row (argB m c) (tileBatch (tile t)) q :=
    funext fun d => blkB_apply m c t q d
  rw [eA, eB]
  rfl

/-! ## The accumulator after each point -/

theorem acc_eq (c : Dev nD) : ∀ (n : ℕ) (h : n < cfg0.N) (y : S1x1.Idx),
    outsAt0 m c n h y = running (argA m c) (argB m c) n
  | 0, h, y => by
    rw [outsAt0_A m c ⟨0, h⟩ rfl, Pieces.out_first]
    refine (step_tile m c ⟨0, h⟩ _ y).trans ?_
    rw [running_zero]
    have hz0 : k0_pay2 (F := Ideal) y = 0 := Ideal.ofBits_zero_f32
    rw [hz0, zero_add]
    rfl
  | n + 1, h, y => by
    have hN : cfg0.N = 32 := N_0
    have hB : ¬(⟨n + 1, h⟩ : Fin cfg0.N).val % 32 = 0 := by dsimp only; omega
    rw [outsAt0_B m c ⟨n + 1, h⟩ hB, Pieces.out_later]
    refine (step_tile m c ⟨n + 1, h⟩ _ y).trans ?_
    rw [running_succ _ _ n (by omega)]
    show outsAt0 m c n _ y + _ = _
    rw [acc_eq c n _ y]
    rfl

/-! ## The one write-back and the result array -/

/-- The result array's contents: its one entry is the joint total of all pairs. -/
def accArr (c : Dev nD) : Buf (Elt Ideal) ((c : Thread nD τ).loc main_v0) := fun _ => bothSum (argA m c) (argB m c)

/-- The last grid point. -/
def tLast : Fin cfg0.N := ⟨31, by rw [show cfg0.N = 32 from N_0]; decide⟩

/-- The write-back, at the last point, writes the joint total: the block is the whole one-entry array. -/
theorem flushed_eq (c : Dev nD) (t : Fin cfg0.N) (hf : (cfg0.win 2).flush t = true) :
    (dats m 0 c).flushed 2 t = ((cfg0.win 2).blk t).view.read (Elt Ideal) (accArr m c) := by
  have hN : cfg0.N = 32 := N_0
  have h31 : t.val = 31 := by have := (flush0_2 t).mp hf; have := t.isLt; omega
  show (cfg0.win 2).cut (grid0.coords t) ((dats m 0 c).after 2 t) = _
  rw [after0_2]
  have hX : outsAt0 m c t.val t.isLt = accArr m c := funext fun y =>
    (acc_eq m c t.val t.isLt y).trans (by rw [h31]; exact running_last _ _)
  rw [hX]
  have hz' : (fun a => win0_2.index t a * main_v0.ty.shape.size a) = fun _ => 0 := funext fun a => by
    match a with
    | ⟨0, _⟩ => show win0_2.index t 0 * 1 = 0; rw [(indexAcc t).1]
    | ⟨1, _⟩ => show win0_2.index t 1 * 1 = 0; rw [(indexAcc t).2]
  exact (Memref.read_access_unit_zero (Elt Ideal) main_v0 hz' (fun a => by rw [congrFun hz' a]; simp) (accArr m c)).symm

/-- So the result array ends holding the joint total. -/
theorem final_acc (c : Dev nD) : (dats m 0 c).arrAt 2 cfg0.N = accArr m c :=
  (dats m 0 c).arrAt_eq_of_cover 2 (accArr m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [(indexAcc tLast).1, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [(indexAcc tLast).2, show win0_2.xsize (grid0.coords tLast) 1 = 1 from by decide +kernel]; omega⟩

/-! ## The host's last lines and the run -/

/-- After the region the host reads the one entry as a scalar and divides it by the pair count. -/
theorem tail_eq (c : Dev nD) :
    Pipeline.afterTail₀ cfgs (dats m) 0 (V0 m) [hostOps1] c main_v2 = fun _ => lossJoint (argA m c) (argB m c) := by
  unfold Pipeline.afterTail₀
  show StableHlo.after hostOps1 _ (Proc.devRef .tc main_v2) = _
  after_results
  have hX : Pipeline.withArrays (cfgs 0).spec c (V0 m c) (fun w => (dats m 0 c).arrAt w (cfgs 0).N)
      (Proc.devRef .tc main_v0) = accArr m c :=
    (Pipeline.withArrays_arr spec0 launch0.win.arr_inj c _ _ 2).trans (final_acc m c)
  rw [hX]
  funext i
  rfl

theorem mem_result : main_v2 ∈ Pipeline.restRefs sig (cfgs 0).spec :=
  Pipeline.mem_restRefs_of main_v2 rfl (fun w => by fin_cases w <;> decide)

/-- The run, read: the result at the joint loss of the argument arrays, the arguments unchanged. -/
theorem run : θ_run defs (onTc (τ := τ) (main (F := Ideal))) ⟨m, fun _ => 0, ρ⟩ fun r => ∀ c : Dev nD,
      r.2.mem ((c.tc : Thread nD τ).loc main_v2) = (fun _ => lossJoint (argA m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 mem_result).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Total

end
-- ==== Proof.LibIdx3.lean ====
/-
  A total over a rank-3 index set, coordinate by coordinate.

  An index of a rank-3 shape with extents n0, n1, n2 is the same thing as a triple of coordinates, one below each
  extent; so a sum over all such indices, in any commutative monoid, is the triple sum over the three coordinate
  ranges, outermost coordinate first. This is the rank-3 companion of the library's rank-2 statement
  (Lib/ValueIdx.lean, `idxEquiv2` / `sum_idx2`), and is stated for arbitrary extents.
-/
import Idealize.ShloMosaic.Lib.ValueIdx
import Mathlib.Algebra.BigOperators.Fin

noncomputable section

open scoped BigOperators

namespace Cert.LibIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdx3

end
-- ==== Proof.RefValue.lean ====
/-
  The reference program's result, read on the extended reals, is the specification's split loss.

  The reference computes, for every batch b and every pair (n, k) of a row of the first array and a row of the second,
  the distance s through |x|² + |y|² - 2⟨x, y⟩ clipped at zero and rooted, and a mask that is 0 where n = k and 1
  elsewhere (an integer comparison of the two positions, turned into a float and subtracted from 1). It then totals
  s²·mask over all (b, n, k) and divides by the pair count, totals max(1 - s, 0)²·mask likewise, and adds the two
  quotients. Below, each intermediate array is read at an index given by its coordinates and identified with the
  specification's term for that index; a total over the rank-3 index set is the triple sum over the coordinates.
-/
import proofs.«158564_j67413806678513_1_alg».proof.Proof.Gen.ReferenceIdeal.Read
import proofs.«158564_j67413806678513_1_alg».proof.Proof.Spec
import proofs.«158564_j67413806678513_1_alg».proof.Proof.LibIdx3
import Idealize.ShloMosaic.Lib.ValueIdx
import Idealize.ShloMosaic.Lib.Affine
import Idealize.ShloMosaic.PureOps.Ideal.Laws

noncomputable section

namespace Cert.ReferenceIdeal.RefValue

open Idealize.ShloMosaic Idealize.ShloMosaic.ValueIdx Cert.ReferenceIdeal Cert.ReferenceIdeal.Read

/-! ## Indices of the intermediate arrays, by coordinates -/

/-- The squared length of row n of batch b of the first array, as the reference's row sum. -/
theorem sqA_at (A : Cert.PairLoss.Arr) (b : Fin 16) (n : Fin 1024) :
    val_main_v1 (F := Ideal) A (ix2 b n) = Cert.PairLoss.sq (Cert.PairLoss.row A b n) := by
  rw [val_main_v1_apply, val_main_cst_apply, Ideal.ofBits_def, Ideal.ofBits_zero_f32, zero_add]
  unfold Cert.PairLoss.sq Cert.PairLoss.row
  refine Finset.sum_congr rfl fun d _ => ?_
  have e : idx_main_v1 (ix2 b n) d = ix3 b n d :=
    funext fun a => Fin.ext (by match a with | ⟨0, _⟩ => rfl | ⟨1, _⟩ => rfl | ⟨2, _⟩ => rfl)
  rw [val_main_v0_apply, Ideal.mulf_def, e]

/-- The same for the second array. -/
theorem sqB_at (B : Cert.PairLoss.Arr) (b : Fin 16) (k : Fin 1024) :
    val_main_v3 (F := Ideal) B (ix2 b k) = Cert.PairLoss.sq (Cert.PairLoss.row B b k) := by
  rw [val_main_v3_apply, val_main_cst_0_apply, Ideal.ofBits_def, Ideal.ofBits_zero_f32, zero_add]
  unfold Cert.PairLoss.sq Cert.PairLoss.row
  refine Finset.sum_congr rfl fun d _ => ?_
  have e : idx_main_v3 (ix2 b k) d = ix3 b k d :=
    funext fun a => Fin.ext (by match a with | ⟨0, _⟩ => rfl | ⟨1, _⟩ => rfl | ⟨2, _⟩ => rfl)
  rw [val_main_v2_apply, Ideal.mulf_def, e]

/-- The first array's squared lengths spread along the columns: entry (b, n, k) is that of row n. -/
theorem sqA_spread (A : Cert.PairLoss.Arr) (b : Fin 16) (n k : Fin 1024) :
    val_main_v7 (F := Ideal) A (ix3 b n k) = Cert.PairLoss.sq (Cert.PairLoss.row A b n) := by
  have e : idx_main_v5 (idx_main_v7 (ix3 b n k)) = ix2 b n :=
    funext fun a => Fin.ext (by match a with | ⟨0, _⟩ => rfl | ⟨1, _⟩ => rfl)
  rw [val_main_v7_apply, val_main_v5_apply, e]
  exact sqA_at A b n

/-- The second array's squared lengths spread along the rows: entry (b, n, k) is that of row k. -/
theorem sqB_spread (B : Cert.PairLoss.Arr) (b : Fin 16) (n k : Fin 1024) :
    val_main_v8 (F := Ideal) B (ix3 b n k) = Cert.PairLoss.sq (Cert.PairLoss.row B b k) := by
  have e : idx_main_v6 (idx_main_v8 (ix3 b n k)) = ix2 b k :=
    funext fun a => Fin.ext (by match a with | ⟨0, _⟩ => rfl | ⟨1, _⟩ => rfl)
  rw [val_main_v8_apply, val_main_v6_apply, e]
  exact sqB_at B b k

/-- The batched contraction at (b, n, k) is the inner product of row n of the first array and row k of the second. -/
theorem ip_at (A B : Cert.PairLoss.Arr) (b : Fin 16) (n k : Fin 1024) :
    val_main_v4 (F := Ideal) A B (ix3 b n k) = Cert.PairLoss.ip (Cert.PairLoss.row A b n) (Cert.PairLoss.row B b k) := by
  rw [val_main_v4_apply]
  unfold Cert.PairLoss.ip Cert.PairLoss.row
  refine Finset.sum_congr rfl fun d _ => ?_
  have el : lidx_main_v4 (ix3 b n k) d = ix3 b n d :=
    funext fun a => Fin.ext (by match a with | ⟨0, _⟩ => rfl | ⟨1, _⟩ => rfl | ⟨2, _⟩ => rfl)
  have er : ridx_main_v4 (ix3 b n k) d = ix3 b k d :=
    funext fun a => Fin.ext (by match a with | ⟨0, _⟩ => rfl | ⟨1, _⟩ => rfl | ⟨2, _⟩ => rfl)
  rw [el, er]

/-! ## The distance -/

/-- The reference's distance array at (b, n, k) is the distance of row n of the first array and row k of the second. -/
theorem gap_at (A B : Cert.PairLoss.Arr) (b : Fin 16) (n k : Fin 1024) :
    val_main_v15 (F := Ideal) A B (ix3 b n k) = Cert.PairLoss.gap (Cert.PairLoss.row A b n) (Cert.PairLoss.row B b k) := by
  rw [val_main_v15_apply, Ideal.hostUnary_sqrt_def, val_main_v14_apply, Ideal.maximumf_def, val_main_v12_apply,
    Ideal.subf_def, val_main_v9_apply, Ideal.addf_def, val_main_v11_apply, Ideal.mulf_def, sqA_spread, sqB_spread,
    ip_at, val_main_v10_apply, val_main_cst_1_apply, val_main_v13_apply, val_main_cst_2_apply]
  simp only [Ideal.ofBits_def, Ideal.ofBits_zero_f32]
  rfl

/-! ## The mask -/

/-- Two positions below 1024, written as 32-bit words (the first with the zero word added), are the same word exactly
    when they are the same position: neither wraps. -/
theorem word_eq_iff (n k : Fin 1024) : BitVec.ofNat 32 n.val + 0#32 = BitVec.ofNat 32 k.val ↔ n = k := by
  rw [BitVec.add_zero]
  constructor
  · intro h
    have h' := congrArg BitVec.toNat h
    simp only [BitVec.toNat_ofNat] at h'
    have hn := n.isLt
    have hk := k.isLt
    exact Fin.ext (by omega)
  · rintro rfl
    rfl

/-- The reference's mask array at (b, n, k): 0 on the diagonal n = k, 1 off it. -/
theorem mask_at (b : Fin 16) (n k : Fin 1024) :
    val_main_v26 (F := Ideal) (ix3 b n k) = Cert.PairLoss.offDiag n.val k.val := by
  rw [val_main_v26_apply, val_main_v25_apply, val_main_v23_apply, val_main_v22_apply, val_main_cst_3_apply,
    val_main_v21_apply, val_main_v20_apply, val_main_v19_apply, val_main_v16_apply, val_main_v17_apply,
    val_main_v18_apply, val_main_c_apply]
  show (Cert.PairLoss.one : EReal)
      - (((IntOp.cmpi .eq (BitVec.ofNat 32 n.val + 0#32) (BitVec.ofNat 32 k.val)).toNat : ℝ) : EReal)
    = Cert.PairLoss.offDiag n.val k.val
  unfold Cert.PairLoss.offDiag
  by_cases h : n = k
  · have hw : IntOp.cmpi .eq (BitVec.ofNat 32 n.val + 0#32) (BitVec.ofNat 32 k.val) = 1#1 :=
      IntOp.cmpi_eq.mpr ((word_eq_iff n k).mpr h)
    have c : (((1#1 : BitVec 1).toNat : ℝ) : EReal) = 1 := by
      show (((1 : ℕ) : ℝ) : EReal) = 1
      rw [Nat.cast_one, EReal.coe_one]
    rw [hw, if_pos (congrArg Fin.val h), Cert.PairLoss.one_eq, c]
    exact EReal.sub_self (EReal.coe_ne_top 1) (EReal.coe_ne_bot 1)
  · have hw : IntOp.cmpi .eq (BitVec.ofNat 32 n.val + 0#32) (BitVec.ofNat 32 k.val) = 0#1 :=
      eq_zero_of_ne_one fun h1 => h ((word_eq_iff n k).mp (IntOp.cmpi_eq.mp h1))
    have c : (((0#1 : BitVec 1).toNat : ℝ) : EReal) = 0 := by
      show (((0 : ℕ) : ℝ) : EReal) = 0
      rw [Nat.cast_zero, EReal.coe_zero]
    rw [hw, if_neg (fun e => h (Fin.ext e)), Cert.PairLoss.one_eq, c, sub_zero]

/-- The mask is built a second time for the push terms; it is the same array. -/
theorem mask_at' (b : Fin 16) (n k : Fin 1024) :
    val_main_v36 (F := Ideal) (ix3 b n k) = Cert.PairLoss.offDiag n.val k.val := by
  have e : val_main_v36 (F := Ideal) (ix3 b n k) = val_main_v26 (F := Ideal) (ix3 b n k) := by
    rw [val_main_v36_apply, val_main_v35_apply, val_main_v26_apply, val_main_v25_apply]
  rw [e]
  exact mask_at b n k

/-! ## The two totals -/

/-- The reference's first total is the total of the pull terms. -/
theorem pull_total (A B : Cert.PairLoss.Arr) (i : S_.Idx) :
    val_main_v28 (F := Ideal) A B i = Cert.PairLoss.pullSum A B := by
  rw [val_main_v28_apply, val_main_cst_4_apply, Ideal.ofBits_def, Ideal.ofBits_zero_f32, zero_add,
    Cert.LibIdx3.sum_idx3]
  unfold Cert.PairLoss.pullSum Cert.PairLoss.pull
  refine Finset.sum_congr rfl fun b _ => Finset.sum_congr rfl fun n _ => Finset.sum_congr rfl fun k _ => ?_
  rw [val_main_v27_apply, Ideal.mulf_def, val_main_v24_apply, Ideal.mulf_def, gap_at, mask_at]

/-- The shortfall of the distance from the margin, at (b, n, k). -/
theorem hinge_at (A B : Cert.PairLoss.Arr) (b : Fin 16) (n k : Fin 1024) :
    val_main_v33 (F := Ideal) A B (ix3 b n k)
      = Cert.PairLoss.hinge (Cert.PairLoss.gap (Cert.PairLoss.row A b n) (Cert.PairLoss.row B b k)) := by
  rw [val_main_v33_apply, Ideal.maximumf_def, val_main_v31_apply, Ideal.subf_def, gap_at, val_main_v30_apply,
    val_main_cst_6_apply, val_main_v32_apply, val_main_cst_7_apply]
  simp only [Ideal.ofBits_def, Ideal.ofBits_zero_f32]
  rfl

/-- The reference's second total is the total of the push terms. -/
theorem push_total (A B : Cert.PairLoss.Arr) (i : S_.Idx) :
    val_main_v38 (F := Ideal) A B i = Cert.PairLoss.pushSum A B := by
  rw [val_main_v38_apply, val_main_cst_8_apply, Ideal.ofBits_def, Ideal.ofBits_zero_f32, zero_add,
    Cert.LibIdx3.sum_idx3]
  unfold Cert.PairLoss.pushSum Cert.PairLoss.push
  refine Finset.sum_congr rfl fun b _ => Finset.sum_congr rfl fun n _ => Finset.sum_congr rfl fun k _ => ?_
  rw [val_main_v37_apply, Ideal.mulf_def, val_main_v34_apply, Ideal.mulf_def, hinge_at, mask_at']

/-! ## The result -/

/-- The reference's result is the loss with the two kinds of term totalled and divided separately. -/
theorem ref_eq (A B : (⟨S16x1024x512, .f32⟩ : BufTy).Contents (Elt Ideal)) (i : S_.Idx) :
    Cert.ReferenceIdeal.Read.val_main_v40 (F := Ideal) A B i = Cert.PairLoss.lossSplit A B := by
  rw [val_main_v40_apply, Ideal.addf_def, val_main_v29_apply, Ideal.hostDivf_def, val_main_v39_apply,
    Ideal.hostDivf_def, pull_total, push_total, val_main_cst_5_apply, val_main_cst_9_apply]
  simp only [Ideal.ofBits_def]
  rfl

end Cert.ReferenceIdeal.RefValue

end
-- ==== Proof.lean ====
/-
  The kernel computes the off-diagonal margin loss over pairwise distances tile by tile; the reference computes it
  with two whole-array sums. Over the extended reals the two are one number.

  For each batch b and rows n, k the distance is s = √max(|aₙ|² + |bₖ|² − 2⟨aₙ, bₖ⟩, 0), and the pair contributes
  s² and max(1 − s, 0)², both only when n ≠ k. The kernel's 32 grid points each add one tile's total of
  (s² + max(1 − s, 0)²)·mask to a one-entry accumulator that starts from zero, and the host divides the entry by the
  number of off-diagonal pairs, 16·1024·1023. The reference totals s²·mask and max(1 − s, 0)²·mask separately over
  all batches and pairs, divides each total by the same number and adds the quotients.

  The kernel's matrix product rounds its operands to a narrower format first, which at the exact reading changes
  nothing; its lane sums and the reference's sums are the same finite sums; the mask is 0 or 1 on both sides. What
  joins the two arrangements: sums may be regrouped (tiles and positions are exactly batches and rows), a 0/1 mask
  distributes over a sum of any two extended reals, and so does multiplication by the finite positive 1/16760832.
  No use is made of the inputs being finite.

  The three frames are the generated frame runs (the reference's is its run with the result dropped), and the
  idealization changed no operation.
-/
import proofs.«158564_j67413806678513_1_alg».proof.Defs
import proofs.«158564_j67413806678513_1_alg».proof.Proof.Gen.Kernel
import proofs.«158564_j67413806678513_1_alg».proof.Proof.Gen.Kernel.Skeleton
import proofs.«158564_j67413806678513_1_alg».proof.Proof.Gen.Kernel.Launch
import proofs.«158564_j67413806678513_1_alg».proof.Proof.Gen.Kernel.Points
import proofs.«158564_j67413806678513_1_alg».proof.Proof.Gen.Kernel.Frame
import proofs.«158564_j67413806678513_1_alg».proof.Proof.Gen.KernelIdeal
import proofs.«158564_j67413806678513_1_alg».proof.Proof.Gen.KernelIdeal.Skeleton
import proofs.«158564_j67413806678513_1_alg».proof.Proof.Gen.KernelIdeal.Launch
import proofs.«158564_j67413806678513_1_alg».proof.Proof.Gen.KernelIdeal.Points
import proofs.«158564_j67413806678513_1_alg».proof.Proof.Gen.KernelIdeal.Frame
import proofs.«158564_j67413806678513_1_alg».proof.Proof.Gen.ReferenceIdeal
import proofs.«158564_j67413806678513_1_alg».proof.Proof.Gen.ReferenceIdeal.Run
import proofs.«158564_j67413806678513_1_alg».proof.Proof.Gen.ReferenceIdeal.Read
import proofs.«158564_j67413806678513_1_alg».proof.Proof.Gen.Pre_finite_inputs
import proofs.«158564_j67413806678513_1_alg».proof.Proof.Spec
import proofs.«158564_j67413806678513_1_alg».proof.Proof.KernelValue
import proofs.«158564_j67413806678513_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the loss of the (agreeing) argument arrays: the kernel with the joint total divided
    once, the reference with the two totals divided separately, which are equal. -/
theorem algebraic : Cert.algebraic_KernelIdeal_ReferenceIdeal := by
  intro m ρ m' ρ' _ hagree
  refine ⟨fun c => fun _ => Cert.PairLoss.lossJoint (Cert.KernelIdeal.Total.argA m c) (Cert.KernelIdeal.Total.argB m c),
    Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2]
  funext i
  rw [Cert.ReferenceIdeal.RefValue.ref_eq]
  exact (Cert.PairLoss.lossJoint_eq_lossSplit _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
